-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x64 : Shape := ⟨3, ![16, 4096, 64]⟩
abbrev S512x64 : Shape := ⟨2, ![512, 64]⟩
abbrev S512 : Shape := ⟨1, ![512]⟩
abbrev S_ : Shape := ⟨0, ![]⟩

class Facts : Prop where
  bcast_S_S16x4096x64 : S_.BroadcastsInDim S16x4096x64 (![] : Fin 0 → Fin S16x4096x64.rank)
  reducesTo_S16x4096x64_S_d0_1_2 : S16x4096x64.ReducesTo [0, 1, 2] S_
  h_S_ : 0 < S_.numel
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S16x4096x64 .f32) (main_arg1 : FVec F S512x64 .f32) (main_arg2 : FVec F S512 .f32) : IVec S_ 1 :=
  let main_v0 : FVec F S16x4096x64 .f32 := Host.absf main_arg0
  let main_cst : FVec F S_ .f32 := constant S_ .f32 0x7F800000#32
  let main_v1 : FVec F S16x4096x64 .f32 := broadcastInDim S16x4096x64 ![] bcast_S_S16x4096x64 main_cst
  let main_v2 : IVec S16x4096x64 1 := cmpf .olt main_v0 main_v1
  let main_c : IVec S_ 1 := constantI S_ 1 1#1
  let main_v3 : IVec S_ 1 := (fun x v => Host.reduce IntOp.andi x v reducesTo_S16x4096x64_S_d0_1_2 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S16x4096x64 : Shape := ⟨3, ![16, 4096, 64]⟩
abbrev S512x64 : Shape := ⟨2, ![512, 64]⟩
abbrev S512 : Shape := ⟨1, ![512]⟩
abbrev S65536x64 : Shape := ⟨2, ![65536, 64]⟩
abbrev S64x512 : Shape := ⟨2, ![64, 512]⟩
abbrev S_ : Shape := ⟨0, ![]⟩
abbrev S1x512 : Shape := ⟨2, ![1, 512]⟩
abbrev S65536x512 : Shape := ⟨2, ![65536, 512]⟩
abbrev S2048x64 : Shape := ⟨2, ![2048, 64]⟩
abbrev S2048x512 : Shape := ⟨2, ![2048, 512]⟩
abbrev S2048 : Shape := ⟨1, ![2048]⟩
abbrev S2048x1 : Shape := ⟨2, ![2048, 1]⟩
abbrev S16x4096x512 : Shape := ⟨3, ![16, 4096, 512]⟩

abbrev nBuf : Space → Nat
  | .hbm => 13
  | .vmem => 7
  | .smem => 0
  | _ => 0

abbrev bufTy : (tb : Table) → Fin (tcTables nBuf tb) → BufTy
  | .hbm, ⟨0, _⟩ => ⟨S16x4096x64, .f32⟩
  | .hbm, ⟨1, _⟩ => ⟨S512x64, .f32⟩
  | .hbm, ⟨2, _⟩ => ⟨S512, .f32⟩
  | .hbm, ⟨3, _⟩ => ⟨S65536x64, .f32⟩
  | .hbm, ⟨4, _⟩ => ⟨S64x512, .f32⟩
  | .hbm, ⟨5, _⟩ => ⟨S512x64, .f32⟩
  | .hbm, ⟨6, _⟩ => ⟨S_, .f32⟩
  | .hbm, ⟨7, _⟩ => ⟨S512, .f32⟩
  | .hbm, ⟨8, _⟩ => ⟨S1x512, .f32⟩
  | .hbm, ⟨9, _⟩ => ⟨S512, .f32⟩
  | .hbm, ⟨10, _⟩ => ⟨S1x512, .f32⟩
  | .hbm, ⟨11, _⟩ => ⟨S65536x512, .f32⟩
  | .hbm, ⟨12, _⟩ => ⟨S16x4096x512, .f32⟩
  | .local _ .vmem, ⟨0, _⟩ => ⟨S2048x64, .f32⟩
  | .local _ .vmem, ⟨1, _⟩ => ⟨S2048x64, .f32⟩
  | .local _ .vmem, ⟨2, _⟩ => ⟨S64x512, .f32⟩
  | .local _ .vmem, ⟨3, _⟩ => ⟨S1x512, .f32⟩
  | .local _ .vmem, ⟨4, _⟩ => ⟨S1x512, .f32⟩
  | .local _ .vmem, ⟨5, _⟩ => ⟨S2048x512, .f32⟩
  | .local _ .vmem, ⟨6, _⟩ => ⟨S2048x512, .f32⟩
  | _, _ => ⟨S16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x4096x64_S65536x64 : S16x4096x64.ShapeCasts S65536x64
  transposes_S512x64_S64x512_1_0 : S512x64.Transposes [1, 0] S64x512
  reducesTo_S512x64_S512_d1 : S512x64.ReducesTo [1] S512
  h_S_ : 0 < S_.numel
  shapeCasts_S512_S1x512 : S512.ShapeCasts S1x512
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  bitsLt_bf16_f32 : FTy.bits .bf16 < FTy.bits .f32
  reduces_S2048x64_S2048 : S2048x64.Reduces [1] S2048
  shapeCasts_S2048_S2048x1 : S2048.ShapeCasts S2048x1
  broadcasts_S2048x1_S2048x512 : S2048x1.Broadcasts S2048x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  shapeCasts_S65536x512_S16x4096x512 : S65536x512.ShapeCasts S16x4096x512
  dot_S2048x64_S64x512_S2048x512_1_0_0_1_n_n_wf : DotDims.WF S2048x64 S64x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S65536x64.size a
  hwx0_0 : ∀ i : grid0.Coords, EltTy.bits .f32 = 32 ∨ (Rect.block (s := S65536x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S65536x512.size a
  hwx0_4 : ∀ i : grid0.Coords, EltTy.bits .f32 = 32 ∨ (Rect.block (s := S65536x512) S2048x512.size (cc0_transform_4 i) (hinb0_4 i)).WholeWords (EltTy.packing .f32)

variable [Facts₀]

def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf

abbrev win0_0 : Pipeline.Window sig grid0 :=
  Pipeline.Window.ofSpec (Memref.whole main_v0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096x64 : Shape := ⟨3, ![16, 4096, 64]⟩
abbrev S512x64 : Shape := ⟨2, ![512, 64]⟩
abbrev S512 : Shape := ⟨1, ![512]⟩
abbrev S_ : Shape := ⟨0, ![]⟩
abbrev S16x4096 : Shape := ⟨2, ![16, 4096]⟩
abbrev S16x4096x1 : Shape := ⟨3, ![16, 4096, 1]⟩
abbrev S16x4096x512 : Shape := ⟨3, ![16, 4096, 512]⟩
abbrev S1x1x512 : Shape := ⟨3, ![1, 1, 512]⟩

abbrev nBuf : Space → Nat
  | .hbm => 22
  | .vmem => 0
  | .smem => 0
  | _ => 0

abbrev bufTy : (tb : Table) → Fin (tcTables nBuf tb) → BufTy
  | .hbm, ⟨0, _⟩ => ⟨S16x4096x64, .f32⟩
  | .hbm, ⟨1, _⟩ => ⟨S512x64, .f32⟩
  | .hbm, ⟨2, _⟩ => ⟨S512, .f32⟩
  | .hbm, ⟨3, _⟩ => ⟨S16x4096x64, .f32⟩
  | .hbm, ⟨4, _⟩ => ⟨S_, .f32⟩
  | .hbm, ⟨5, _⟩ => ⟨S16x4096, .f32⟩
  | .hbm, ⟨6, _⟩ => ⟨S16x4096x1, .f32⟩
  | .hbm, ⟨7, _⟩ => ⟨S512x64, .f32⟩
  | .hbm, ⟨8, _⟩ => ⟨S_, .f32⟩
  | .hbm, ⟨9, _⟩ => ⟨S512, .f32⟩
  | .hbm, ⟨10, _⟩ => ⟨S16x4096x512, .f32⟩
  | .hbm, ⟨11, _⟩ => ⟨S_, .f32⟩
  | .hbm, ⟨12, _⟩ => ⟨S16x4096x512, .f32⟩
  | .hbm, ⟨13, _⟩ => ⟨S16x4096x512, .f32⟩
  | .hbm, ⟨14, _⟩ => ⟨S16x4096x512, .f32⟩
  | .hbm, ⟨15, _⟩ => ⟨S16x4096x512, .f32⟩
  | .hbm, ⟨16, _⟩ => ⟨S1x1x512, .f32⟩
  | .hbm, ⟨17, _⟩ => ⟨S16x4096x512, .f32⟩
  | .hbm, ⟨18, _⟩ => ⟨S16x4096x512, .f32⟩
  | .hbm, ⟨19, _⟩ => ⟨S1x1x512, .f32⟩
  | .hbm, ⟨20, _⟩ => ⟨S16x4096x512, .f32⟩
  | .hbm, ⟨21, _⟩ => ⟨S16x4096x512, .f32⟩
  | _, _ => ⟨S16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S16x4096x64_S16x4096_d2 : S16x4096x64.ReducesTo [2] S16x4096
  h_S_ : 0 < S_.numel
  bcast_S16x4096_S16x4096x1_0_1 : S16x4096.BroadcastsInDim S16x4096x1 (![0, 1] : Fin 2 → Fin S16x4096x1.rank)
  reducesTo_S512x64_S512_d1 : S512x64.ReducesTo [1] S512
  bcast_S_S16x4096x512 : S_.BroadcastsInDim S16x4096x512 (![] : Fin 0 → Fin S16x4096x512.rank)
  bcast_S16x4096x1_S16x4096x512_0_1_2 : S16x4096x1.BroadcastsInDim S16x4096x512 (![0, 1, 2] : Fin 3 → Fin S16x4096x512.rank)
  bcast_S512_S1x1x512_2 : S512.BroadcastsInDim S1x1x512 (![2] : Fin 1 → Fin S1x1x512.rank)
  bcast_S1x1x512_S16x4096x512_0_1_2 : S1x1x512.BroadcastsInDim S16x4096x512 (![0, 1, 2] : Fin 3 → Fin S16x4096x512.rank)
  dot_S16x4096x64_S512x64_S16x4096x512_2_1_01_0_n_n_wf : DotDims.WF S16x4096x64 S512x64 S16x4096x512 [2] [1] [0, 1] [0] [] []

variable [Facts₀]

def dot_S16x4096x64_S512x64_S16x4096x512_2_1_01_0_n_n : DotDims S16x4096x64 S512x64 S16x4096x512 where
  lhsContracting := [2]
  rhsContracting := [1]
  lhsNonContracting := [0, 1]
  rhsNonContracting := [0]
  lhsBatch := []
  rhsBatch := []
  wf := dot_S16x4096x64_S512x64_S16x4096x512_2_1_01_0_n_n_wf

class Facts : Prop extends Facts₀ where

variable [Facts]
-- ==== Proof.Finite.lean ====
/-
  The precondition, read back: every entry of the three inputs is a real number.

  `finite_inputs` is the conjunction of three tests "all |a| < +∞", one per input. On the extended reals
  `|a| = max a (−a)` is below `+∞` exactly when `a` is neither `+∞` nor `−∞`, that is, when `a` is (the image of) a
  real number. A test "all" that came out true held at every index.
-/
import proofs.«142441_j69114613728512_1_alg».proof.Pre_finite_inputs
import Idealize.ShloMosaic.Lib.ReduceAll
import Idealize.ShloMosaic.Lib.ValueIdx
import Idealize.ShloMosaic.PureOps.Ideal.Laws

noncomputable section

namespace Cert.Pre_finite_inputs.Decode

open Cert.Pre_finite_inputs Idealize.ShloMosaic Idealize.ShloMosaic.ValueIdx

variable [Facts]
open Facts

/-- The scalar shape has one index. -/
instance : Subsingleton S_.Idx := ⟨fun a b => funext fun d => d.elim0⟩

/-- An extended real whose absolute value is below the pattern of `+∞` is a real number. -/
theorem real_of_abs_lt_inf (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  have h' : max a (-a) < ⊤ := by
    by_contra hn
    simp [Ideal.cmp, hn] at h
  induction a using EReal.rec with
  | bot => simp at h'
  | coe r => exact ⟨r, rfl⟩
  | top => simp at h'

/-- Under `finite_inputs` every entry of `x`, of `C` and of `S` is a real number. -/
theorem reals_of_pre (x : FVec Ideal S16x4096x64 .f32) (C : FVec Ideal S512x64 .f32) (S : FVec Ideal S512 .f32)
    (h : fn (F := Ideal) x C S = fun _ => 1#1) :
    (∀ i, ∃ r : ℝ, x i = (r : EReal)) ∧ (∀ i, ∃ r : ℝ, C i = (r : EReal)) ∧ (∀ i, ∃ r : ℝ, S i = (r : EReal)) := by
  have h0 := congrFun h ix0
  dsimp only [fn] at h0
  obtain ⟨h12, h3⟩ := IntOp.andi_eq_one.1 h0
  obtain ⟨h1, h2⟩ := IntOp.andi_eq_one.1 h12
  exact ⟨fun i => real_of_abs_lt_inf _ (Host.reduce_andi_all _ _ _ _ _ h1 i),
    fun i => real_of_abs_lt_inf _ (Host.reduce_andi_all _ _ _ _ _ h2 i),
    fun i => real_of_abs_lt_inf _ (Host.reduce_andi_all _ _ _ _ _ h3 i)⟩

end Cert.Pre_finite_inputs.Decode

end
-- ==== Proof.KernelHost.lean ====
/-
  What the pipeline stages, read at an index.

  Before the launch the host lays the arguments out for the kernel: the data `x` [16, 4096, 64] flattened to
  65536 rows; the codebook `C` [512, 64] transposed to [64, 512]; the scales `S` [512] as a row [1, 512]; and
  `S[k]·(0 + Σ_d C[k,d]²)`, again as a row [1, 512]. Each of these four arrays is read here at an index in
  terms of the arguments.

  The grid has 32 points. At point `t` the data window's block is rows `2048·t … 2048·t + 2047` of the flattened
  data, the three small windows' blocks are their whole arrays, and the output window's block is the same band of
  rows of the result.
-/
import proofs.«142441_j69114613728512_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Arrays

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The three arguments as launched, by name. -/
abbrev xarr (c : Dev nD) : FVec Ideal S16x4096x64 .f32 := m ((c : Thread nD τ).loc main_arg0)
abbrev carr (c : Dev nD) : FVec Ideal S512x64 .f32 := m ((c : Thread nD τ).loc main_arg1)
abbrev sarr (c : Dev nD) : FVec Ideal S512 .f32 := m ((c : Thread nD τ).loc main_arg2)

/-- The four staged arrays as the region finds them, by name. -/
def rows (c : Dev nD) : FVec Ideal S65536x64 .f32 := V m c main_v0
def cbT (c : Dev nD) : FVec Ideal S64x512 .f32 := V m c main_v1
def scaleRow (c : Dev nD) : FVec Ideal S1x512 .f32 := V m c main_v4
def normRow (c : Dev nD) : FVec Ideal S1x512 .f32 := V m c main_v6

/-! ## The host operations before the launch -/

theorem rows_eq (c : Dev nD) : rows m c = shapeCast S65536x64 (xarr m c) shapeCasts_S16x4096x64_S65536x64 := by
  show StableHlo.after hostOps0 (fun b => m (c, b)) (Proc.devRef .tc main_v0) = _
  after_results
  rfl

theorem cbT_eq (c : Dev nD) : cbT m c = transpose S64x512 [1, 0] (carr m c) transposes_S512x64_S64x512_1_0 := by
  show StableHlo.after hostOps0 (fun b => m (c, b)) (Proc.devRef .tc main_v1) = _
  after_results

theorem scaleRow_eq (c : Dev nD) : scaleRow m c = shapeCast S1x512 (sarr m c) shapeCasts_S512_S1x512 := by
  show StableHlo.after hostOps0 (fun b => m (c, b)) (Proc.devRef .tc main_v4) = _
  after_results
  rfl

theorem normRow_eq (c : Dev nD) : normRow m c = shapeCast S1x512 (mulf (sarr m c)
    (Host.reduceAdd (F := Ideal) (mulf (carr m c) (carr m c)) (constant (F := Ideal) S_ .f32 0x00000000#32) reducesTo_S512x64_S512_d1 h_S_))
    shapeCasts_S512_S1x512 := by
  show StableHlo.after hostOps0 (fun b => m (c, b)) (Proc.devRef .tc main_v6) = _
  after_results
  rfl

/-! ## The staged arrays at an index -/

/-- Row `4096·b + n` of the flattened data is the data row `(b, n)`. -/
theorem rows_apply (c : Dev nD) (b : Fin 16) (n : Fin 4096) (r : Fin 65536) (hr : r.val = b.val * 4096 + n.val) (d : Fin 64) :
    rows m c (ix2 r d) = xarr m c (ix3 b n d) := by
  rw [rows_eq]
  refine shapeCast_apply _ _ _ _ ?_
  rw [Shape.rowMajor_val_three, Shape.rowMajor_val_two]
  show (b.val * 4096 + n.val) * 64 + d.val = r.val * 64 + d.val
  rw [hr]

/-- The transposed codebook at `(d, k)` is the codebook at `(k, d)`. -/
theorem cbT_apply (c : Dev nD) (d : Fin 64) (k : Fin 512) : cbT m c (ix2 d k) = carr m c (ix2 k d) := by
  rw [cbT_eq]
  exact transpose_ix2_apply _ _ d k

/-- The scales' row at `(0, k)` is the scale of codebook row `k`. -/
theorem scaleRow_apply (c : Dev nD) (u : Fin 1) (k : Fin 512) : scaleRow m c (ix2 u k) = sarr m c (ix1 k) := by
  rw [scaleRow_eq]
  exact shapeCast_a_1a_apply _ _ u k

/-- The scaled norms' row at `(0, k)`: the scale of row `k` times the squared norm of codebook row `k`, the host's sum
    starting from zero. -/
theorem normRow_apply (c : Dev nD) (u : Fin 1) (k : Fin 512) :
    normRow m c (ix2 u k) = sarr m c (ix1 k) * (Ideal.ofBits .f32 0x00000000#32 + ∑ d : Fin 64, carr m c (ix2 k d) * carr m c (ix2 k d)) := by
  rw [normRow_eq]
  refine (shapeCast_a_1a_apply _ _ u k).trans ?_
  refine congrArg (sarr m c (ix1 k) * ·) ?_
  simp only [Host.reduceAdd, Ideal.hostReduceAdd_def]
  rw [Ideal.hostReduceAdd_single reducesTo_S512x64_S512_d1 (by decide)]
  refine congrArg (_ + ·) (Finset.sum_congr rfl fun d _ => ?_)
  exact congrArg (mulf (carr m c) (carr m c)) (funext fun a => Fin.ext (by match a with | ⟨0, _⟩ => rfl | ⟨1, _⟩ => rfl))

/-! ## The windows' blocks -/

/-- The printed index maps over the 32 grid points: the data window and the output window move one block of rows per
    point; the three small windows stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The four input blocks at point `t`, by name. -/
abbrev rowsBlk (c : Dev nD) (t : Fin cfg0.N) : Vec Ideal S2048x64 .f32 := iblk m c 0 t
abbrev cbTBlk (c : Dev nD) (t : Fin cfg0.N) : Vec Ideal S64x512 .f32 := iblk m c 1 t
abbrev scaleBlk (c : Dev nD) (t : Fin cfg0.N) : Vec Ideal S1x512 .f32 := iblk m c 2 t
abbrev normBlk (c : Dev nD) (t : Fin cfg0.N) : Vec Ideal S1x512 .f32 := iblk m c 3 t

/-- Row `p` of the data block at point `t` is row `2048·t + p` of the flattened data. -/
theorem rowsBlk_apply (c : Dev nD) (t : Fin cfg0.N) (p : Fin 2048) (r : Fin 65536) (hr : r.val = t.val * 2048 + p.val) (d : Fin 64) :
    rowsBlk m c t (ix2 p d) = rows m c (ix2 r d) := by
  obtain ⟨e0, e1, -⟩ := idx_facts t
  unfold rowsBlk iblk
  rw [View.read_apply]
  show V m c main_v0 _ = V m c main_v0 _
  congr 1
  funext a
  apply Fin.ext
  match a with
  | ⟨0, _⟩ => show win0_0.index t (0 : Fin 2) * 2048 + 1 * p.val = r.val; rw [e0, hr]; omega
  | ⟨1, _⟩ => show win0_0.index t (1 : Fin 2) * 64 + 1 * d.val = d.val; rw [e1]; omega

/-- The transposed codebook's block is the whole array, at every point. -/
theorem cbTBlk_apply (c : Dev nD) (t : Fin cfg0.N) (d : Fin 64) (k : Fin 512) : cbTBlk m c t (ix2 d k) = cbT m c (ix2 d k) := by
  obtain ⟨-, -, e0, e1, -⟩ := idx_facts t
  unfold cbTBlk iblk
  rw [View.read_apply]
  show V m c main_v1 _ = V m c main_v1 _
  congr 1
  funext a
  apply Fin.ext
  match a with
  | ⟨0, _⟩ => show win0_1.index t (0 : Fin 2) * 64 + 1 * d.val = d.val; rw [e0]; omega
  | ⟨1, _⟩ => show win0_1.index t (1 : Fin 2) * 512 + 1 * k.val = k.val; rw [e1]; omega

/-- The scales' block is the whole row, at every point. -/
theorem scaleBlk_apply (c : Dev nD) (t : Fin cfg0.N) (u : Fin 1) (k : Fin 512) : scaleBlk m c t (ix2 u k) = scaleRow m c (ix2 u k) := by
  obtain ⟨-, -, -, -, e0, e1, -⟩ := idx_facts t
  unfold scaleBlk iblk
  rw [View.read_apply]
  show V m c main_v4 _ = V m c main_v4 _
  congr 1
  funext a
  apply Fin.ext
  match a with
  | ⟨0, _⟩ => show win0_2.index t (0 : Fin 2) * 1 + 1 * u.val = u.val; rw [e0]; omega
  | ⟨1, _⟩ => show win0_2.index t (1 : Fin 2) * 512 + 1 * k.val = k.val; rw [e1]; omega

/-- The scaled norms' block is the whole row, at every point. -/
theorem normBlk_apply (c : Dev nD) (t : Fin cfg0.N) (u : Fin 1) (k : Fin 512) : normBlk m c t (ix2 u k) = normRow m c (ix2 u k) := by
  obtain ⟨-, -, -, -, -, -, e0, e1, -⟩ := idx_facts t
  unfold normBlk iblk
  rw [View.read_apply]
  show V m c main_v6 _ = V m c main_v6 _
  congr 1
  funext a
  apply Fin.ext
  match a with
  | ⟨0, _⟩ => show win0_3.index t (0 : Fin 2) * 1 + 1 * u.val = u.val; rw [e0]; omega
  | ⟨1, _⟩ => show win0_3.index t (1 : Fin 2) * 512 + 1 * k.val = k.val; rw [e1]; omega

end Cert.KernelIdeal.Arrays

end
-- ==== Proof.LibKeepdims.lean ====
/-
  Keepdims layouts read at an index, for values of any element type.

  A reduction written with `keepdims=True` leaves a unit axis behind and is then broadcast back over the
  reduced axis. Two of the layout steps this produces are read here at an index given by coordinates:

  * a vector `[a]` recast as a column `[a, 1]` holds, at `(i, u)`, the vector's entry `i` (the unit
    coordinate `u` can only be `0`, and the row-major positions `i` and `i * 1 + u` agree);
  * a column `[a, 1]` broadcast to `[a, b]` holds, at `(p, c)`, the column's entry `(p, 0)`: the unit axis
    is read at `0`, the other axis at the same coordinate (when `a = 1` that coordinate is `0` anyway).

  Together with the row forms (`[a] → [1, a]` and `[1, b] → [a, b]`) of the layout library these cover both
  operands of `rowsum[:, None] + colsum[None, :]`.
-/
import Idealize.ShloMosaic.Lib.ValueLayout

namespace KeepdimsLayout

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsLayout
-- ==== Proof.KernelPay.lean ====
/-
  The kernel body's stored value, read at one entry of the block.

  At a grid point the body holds a block `X` of 2048 data rows (64 coordinates each), the transposed codebook
  `CT` (64 × 512), the scales as a row `Sv` (1 × 512) and the row `Sc` (1 × 512) of the scaled squared norms of the
  codebook rows. It stores, at `(p, q)`,
      (Σ_d X[p,d]²)·Sv[q] − (2·Σ_d X[p,d]·CT[d,q])·Sv[q] + Sc[q].
  The pieces: the matrix product into a zero accumulator is the plain sum over the contracted coordinate (the two
  narrowing format changes in front of it are the identity on extended reals); the lane sum of the squares is the
  sum over the row, kept as a column and broadcast along `q`; a 1 × 512 row broadcast down the 2048 rows reads its
  entry `q`.
-/
import proofs.«142441_j69114613728512_1_alg».proof.Proof.Gen.KernelIdeal.Skeleton
import proofs.«142441_j69114613728512_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen
open Idealize.ShloMosaic Idealize.ShloMosaic.ValueIdx

/-- The body's one contraction: rows of the data block against columns of the transposed codebook. -/
abbrev D := dot_S2048x64_S64x512_S2048x512_1_0_0_1_n_n

theorem lhs_D_0 (i : S2048x512.Idx) (q : dot_S2048x64_S64x512_S2048x512_1_0_0_1_n_n.contr.Idx) :
    (dot_S2048x64_S64x512_S2048x512_1_0_0_1_n_n.lhsIdx i q 0).val = (i 0).val := by
  unfold DotDims.lhsIdx
  rw [dif_neg (show ¬(0 : Fin S2048x64.rank) ∈ dot_S2048x64_S64x512_S2048x512_1_0_0_1_n_n.lhsBatch by decide), dif_pos (show (0 : Fin S2048x64.rank) ∈ dot_S2048x64_S64x512_S2048x512_1_0_0_1_n_n.lhsNonContracting by decide)]
  rfl
theorem lhs_D_1 (i : S2048x512.Idx) (q : dot_S2048x64_S64x512_S2048x512_1_0_0_1_n_n.contr.Idx) :
    (dot_S2048x64_S64x512_S2048x512_1_0_0_1_n_n.lhsIdx i q 1).val = (q ⟨0, by decide⟩).val :=
  dot_S2048x64_S64x512_S2048x512_1_0_0_1_n_n.lhsIdx_val_of_single rfl i q
theorem rhs_D_0 (i : S2048x512.Idx) (q : dot_S2048x64_S64x512_S2048x512_1_0_0_1_n_n.contr.Idx) :
    (dot_S2048x64_S64x512_S2048x512_1_0_0_1_n_n.rhsIdx i q 0).val = (q ⟨0, by decide⟩).val :=
  dot_S2048x64_S64x512_S2048x512_1_0_0_1_n_n.rhsIdx_val_of_single rfl i q
theorem rhs_D_1 (i : S2048x512.Idx) (q : dot_S2048x64_S64x512_S2048x512_1_0_0_1_n_n.contr.Idx) :
    (dot_S2048x64_S64x512_S2048x512_1_0_0_1_n_n.rhsIdx i q 1).val = (i 1).val := by
  unfold DotDims.rhsIdx
  rw [dif_neg (show ¬(1 : Fin S64x512.rank) ∈ dot_S2048x64_S64x512_S2048x512_1_0_0_1_n_n.rhsBatch by decide), dif_pos (show (1 : Fin S64x512.rank) ∈ dot_S2048x64_S64x512_S2048x512_1_0_0_1_n_n.rhsNonContracting by decide)]
  rfl

/-- The product into a zero accumulator, at `(p, q)`: the sum over the contracted coordinate. -/
theorem dot_apply (a : FVec Ideal S2048x64 .bf16) (b : FVec Ideal S64x512 .bf16) (p : Fin 2048) (q : Fin 512) :
    matmul D none a b (constant (F := Ideal) S2048x512 .f32 0x00000000#32) (ix2 p q) = ∑ d : Fin 64, a (ix2 p d) * b (ix2 d q) := by
  simp only [matmul]
  rw [Ideal.matmul_constant_zero_apply, ← Equiv.sum_comp (contrEquiv1 D 64 rfl rfl).symm]
  refine Finset.sum_congr rfl fun k _ => ?_
  have hk := contrEquiv1_symm_val D 64 rfl rfl k
  have el : D.lhsIdx (ix2 p q) ((contrEquiv1 D 64 rfl rfl).symm k) = ix2 p k := funext fun a => Fin.ext (by
    match a with
    | ⟨0, _⟩ => exact lhs_D_0 _ _
    | ⟨1, _⟩ => exact (lhs_D_1 _ _).trans hk)
  have er : D.rhsIdx (ix2 p q) ((contrEquiv1 D 64 rfl rfl).symm k) = ix2 k q := funext fun a => Fin.ext (by
    match a with
    | ⟨0, _⟩ => exact (rhs_D_0 _ _).trans hk
    | ⟨1, _⟩ => exact rhs_D_1 _ _)
  rw [el, er]

/-- The lane sum of a block's squares, kept as a column and broadcast along the 512 columns, at `(p, q)`: the sum
    of the squares of row `p`. -/
theorem rowsq_apply (x : FVec Ideal S2048x64 .f32) (hacc : (0x00000000#32 : BitVec 32) = 0x00000000#32)
    (p : Fin 2048) (q : Fin 512) :
    broadcastTo S2048x512 (shapeCast S2048x1 (multiReduction (F := Ideal) .add [1] S2048 (mulf x x) 0x00000000#32 reduces_S2048x64_S2048 (.inl rfl) hacc)
      shapeCasts_S2048_S2048x1) broadcasts_S2048x1_S2048x512 (ix2 p q) = ∑ d : Fin 64, x (ix2 p d) * x (ix2 p d) := by
  refine (KeepdimsLayout.broadcastTo_a1_ab_apply _ _ p q).trans ?_
  refine (KeepdimsLayout.shapeCast_a_a1_apply _ _ p (0 : Fin 1)).trans ?_
  refine (Ideal.multiReduction_add_single (mulf x x) 0x00000000#32 reduces_S2048x64_S2048 (.inl rfl) hacc (ix1 p)).trans ?_
  refine Finset.sum_congr rfl fun d _ => ?_
  exact congrArg (mulf x x) (funext fun a => Fin.ext (by match a with | ⟨0, _⟩ => rfl | ⟨1, _⟩ => rfl))

/-- A 1 × 512 row broadcast down the 2048 rows, at `(p, q)`: the row's entry `q`. -/
theorem row_apply (v : FVec Ideal S1x512 .f32) (p : Fin 2048) (q : Fin 512) :
    broadcastTo S2048x512 v broadcasts_S1x512_S2048x512 (ix2 p q) = v (ix2 (0 : Fin 1) q) :=
  broadcastTo_1b_ab_apply v _ p q

/-- THE STORED VALUE at `(p, q)`. -/
theorem pay_apply (x0 : Vec Ideal S2048x64 .f32) (x1 : Vec Ideal S64x512 .f32) (x2 x3 : Vec Ideal S1x512 .f32)
    (p : Fin 2048) (q : Fin 512) :
    k0_pay1 (F := Ideal) x0 x1 x2 x3 (ix2 p q)
      = ((∑ d : Fin 64, x0 (ix2 p d) * x0 (ix2 p d)) * x2 (ix2 (0 : Fin 1) q)
          - (Ideal.ofBits .f32 0x40000000#32 * ∑ d : Fin 64, x0 (ix2 p d) * x1 (ix2 d q)) * x2 (ix2 (0 : Fin 1) q))
        + x3 (ix2 (0 : Fin 1) q) := by
  unfold k0_pay1
  simp only [shapeCast_self]
  exact congrArg₂ (· + ·)
    (congrArg₂ (· - ·)
      (congrArg₂ (· * ·) (rowsq_apply x0 rfl p q) (row_apply x2 p q))
      (congrArg₂ (· * ·) (congrArg₂ (· * ·) rfl (dot_apply _ _ p q)) (row_apply x2 p q)))
    (row_apply x3 p q)

end Cert.KernelIdeal.Pay

end
-- ==== Proof.KernelArray.lean ====
/-
  From the blocks to the result array, and through the reshape after the launch.

  Write `X` for the flattened data (65536 rows), `C` for the codebook and `S` for the scales. The kernel's
  two-dimensional result holds, at `(r, k)`,
      (Σ_d X[r,d]²)·S[k] − (2·Σ_d X[r,d]·C[k,d])·S[k] + S[k]·(0 + Σ_d C[k,d]²)          (`cell`).
  Point `t` of the grid writes rows `2048·t … 2048·t + 2047` of this table: its stored value at `(p, q)` is the
  body's expression of its four blocks, and those blocks are the band of rows of `X`, the transposed codebook, the
  scales' row and the scaled norms' row. The 32 bands cover the table (row `r` lies in band `r / 2048`), so after the
  run the output array is the table; the host then reshapes it to [16, 4096, 512], where `(b, n, k)` reads row
  `4096·b + n`, column `k`.
-/
import proofs.«142441_j69114613728512_1_alg».proof.Proof.KernelHost
import proofs.«142441_j69114613728512_1_alg».proof.Proof.KernelPay

set_option maxRecDepth 16384

noncomputable section

open scoped BigOperators

namespace Cert.KernelIdeal.Result

open Cert.KernelIdeal Cert.KernelIdeal.Gen Cert.KernelIdeal.Arrays Cert.KernelIdeal.Pay
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Entry `(r, k)` of the kernel's two-dimensional result, from the flattened data, the codebook and the scales. -/
def cell (X : FVec Ideal S65536x64 .f32) (C : FVec Ideal S512x64 .f32) (S : FVec Ideal S512 .f32) (r : Fin 65536) (k : Fin 512) : EReal :=
  ((∑ d : Fin 64, X (ix2 r d) * X (ix2 r d)) * S (ix1 k)
      - (Ideal.ofBits .f32 0x40000000#32 * ∑ d : Fin 64, X (ix2 r d) * C (ix2 k d)) * S (ix1 k))
    + S (ix1 k) * (Ideal.ofBits .f32 0x00000000#32 + ∑ d : Fin 64, C (ix2 k d) * C (ix2 k d))

/-- The whole two-dimensional result. -/
def table (X : FVec Ideal S65536x64 .f32) (C : FVec Ideal S512x64 .f32) (S : FVec Ideal S512 .f32) : FVec Ideal S65536x512 .f32 :=
  fun j => cell X C S ⟨(j 0).val, (j 0).isLt⟩ ⟨(j 1).val, (j 1).isLt⟩

theorem hz : (![0, 0] : Fin 2 → Nat) = fun _ => 0 := funext fun a => by fin_cases a <;> rfl

/-- The body's stored value at `(p, q)` of point `t`'s block is the table's entry at any `(r, k)` with `r = 2048·t + p`
    and `k = q`. -/
theorem stored_eq_cell (c : Dev nD) (t : Fin cfg0.N) (p : Fin 2048) (q : Fin 512) (r : Fin 65536) (k : Fin 512)
    (hr : r.val = t.val * 2048 + p.val) (hk : k = q) :
    k0_pay1 (F := Ideal) (rowsBlk m c t) (cbTBlk m c t) (scaleBlk m c t) (normBlk m c t) (ix2 p q)
      = cell (rows m c) (carr m c) (sarr m c) r k := by
  subst hk
  refine (pay_apply (rowsBlk m c t) (cbTBlk m c t) (scaleBlk m c t) (normBlk m c t) p k).trans ?_
  unfold cell
  simp only [rowsBlk_apply m c t p r hr, cbTBlk_apply, cbT_apply, scaleBlk_apply, scaleRow_apply, normBlk_apply, normRow_apply]

/-- WHAT POINT `t` WRITES BACK is band `t` of the table. -/
theorem flushed_eq (c : Dev nD) (t : Fin cfg0.N) :
    (dats m 0 c).flushed 4 t = ((cfg0.win 4).blk t).view.read (Elt Ideal) (table (rows m c) (carr m c) (sarr m c)) := by
  show (cfg0.win 4).cut (grid0.coords t) ((dats m 0 c).after 4 t) = _
  rw [after0_4]
  unfold out0_4
  rw [View.canon_unit_zero hz]
  simp only [View.ld_unit_zero (S := S2048x64) hz, View.ld_unit_zero (S := S64x512) hz, View.ld_unit_zero (S := S1x512) hz]
  funext y
  obtain ⟨p, q, rfl⟩ : ∃ (p : Fin 2048) (q : Fin 512), y = ix2 p q := ⟨y 0, y 1, eq_ix2 y⟩
  obtain ⟨-, -, -, -, -, -, -, -, e0, e1⟩ := idx_facts t
  have hr : ((((cfg0.win 4).blk t).view.emb (ix2 p q)) 0).val = t.val * 2048 + p.val := by
    show win0_4.index t (0 : Fin 2) * 2048 + 1 * p.val = _
    rw [e0]; omega
  have hk : ((((cfg0.win 4).blk t).view.emb (ix2 p q)) 1).val = q.val := by
    show win0_4.index t (1 : Fin 2) * 512 + 1 * q.val = _
    rw [e1]; omega
  exact stored_eq_cell m c t p q ⟨_, _⟩ ⟨_, _⟩ hr (Fin.ext hk)

/-- An index of the table is in point `t`'s band iff each coordinate is in the band's range on its axis. -/
theorem mem_blk (t : Fin cfg0.N) (i : S65536x512.Idx) :
    i ∈ ((cfg0.win 4).blk t).view.set ↔ ∀ a : Fin 2, win0_4.index t a * S2048x512.size a ≤ (i a).val ∧ (i a).val < win0_4.index t a * S2048x512.size a + S2048x512.size a := by
  show i ∈ ((View.whole main_v7).slice (win0_4.rect t)).set ↔ _
  rw [View.set_slice_whole, Rect.mem_set_unit]
  exact Iff.rfl

/-- Every index of the table is in some point's band: row `r` in band `r / 2048`. -/
theorem covered (i : S65536x512.Idx) : ∃ t : Fin cfg0.N, (cfg0.win 4).flush t = true ∧ i ∈ ((cfg0.win 4).blk t).view.set := by
  have hN : cfg0.N = 32 := N_0
  have hi0 : (i 0).val < 65536 := (i 0).isLt
  have hi1 : (i 1).val < 512 := (i 1).isLt
  have hlt : (i 0).val / 2048 < cfg0.N := by rw [hN]; omega
  obtain ⟨-, -, -, -, -, -, -, -, e0, e1⟩ := idx_facts ⟨(i 0).val / 2048, hlt⟩
  refine ⟨⟨(i 0).val / 2048, hlt⟩, flush0_4 _, ?_⟩
  rw [mem_blk]
  intro a
  match a with
  | ⟨0, _⟩ =>
    show win0_4.index ⟨(i 0).val / 2048, hlt⟩ (0 : Fin 2) * 2048 ≤ (i 0).val ∧ (i 0).val < win0_4.index ⟨(i 0).val / 2048, hlt⟩ (0 : Fin 2) * 2048 + 2048
    rw [e0]
    show (i 0).val / 2048 * 2048 ≤ (i 0).val ∧ (i 0).val < (i 0).val / 2048 * 2048 + 2048
    omega
  | ⟨1, _⟩ =>
    show win0_4.index ⟨(i 0).val / 2048, hlt⟩ (1 : Fin 2) * 512 ≤ (i 1).val ∧ (i 1).val < win0_4.index ⟨(i 0).val / 2048, hlt⟩ (1 : Fin 2) * 512 + 512
    rw [e1]
    omega

/-- THE OUTPUT ARRAY after the run is the table. -/
theorem final (c : Dev nD) : (dats m 0 c).arrAt 4 cfg0.N = table (rows m c) (carr m c) (sarr m c) :=
  (dats m 0 c).arrAt_eq_of_cover 4 (table (rows m c) (carr m c) (sarr m c)) (fun t _ => flushed_eq m c t) (covered)

/-- The host's reshape after the launch: the program's result is the table at shape [16, 4096, 512]. -/
theorem tail_result (c : Dev nD) :
    Pipeline.afterTail₀ cfgs (dats m) 0 (V0 m) [hostOps1] c main_v8
      = shapeCast S16x4096x512 (table (rows m c) (carr m c) (sarr m c)) shapeCasts_S65536x512_S16x4096x512 := by
  unfold Pipeline.afterTail₀
  show StableHlo.after hostOps1 _ (Proc.devRef .tc main_v8) = _
  after_results
  exact congrArg (fun A : FVec Ideal S65536x512 .f32 => shapeCast S16x4096x512 A shapeCasts_S65536x512_S16x4096x512)
    ((Pipeline.withArrays_arr spec0 launch0.win.arr_inj c _ _ 4).trans (final m c))

/-- The run, read: the result at the reshaped table, the arguments unchanged. -/
theorem run : θ_run defs (onTc (τ := τ) (main (F := Ideal))) ⟨m, fun _ => 0, ρ⟩ fun r => ∀ c : Dev nD,
      r.2.mem ((c : Thread nD τ).loc main_v8) = shapeCast S16x4096x512 (table (rows m c) (carr m c) (sarr m c)) shapeCasts_S65536x512_S16x4096x512
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v8 (Pipeline.mem_restRefs_of main_v8 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- THE RESULT at `(b, n, k)`, in terms of the arguments. -/
theorem result_apply (c : Dev nD) (b : Fin 16) (n : Fin 4096) (k : Fin 512) :
    shapeCast S16x4096x512 (table (rows m c) (carr m c) (sarr m c)) shapeCasts_S65536x512_S16x4096x512 (ix3 b n k)
      = ((∑ d : Fin 64, xarr m c (ix3 b n d) * xarr m c (ix3 b n d)) * sarr m c (ix1 k)
          - (Ideal.ofBits .f32 0x40000000#32 * ∑ d : Fin 64, xarr m c (ix3 b n d) * carr m c (ix2 k d)) * sarr m c (ix1 k))
        + sarr m c (ix1 k) * (Ideal.ofBits .f32 0x00000000#32 + ∑ d : Fin 64, carr m c (ix2 k d) * carr m c (ix2 k d)) := by
  have hb : b.val < 16 := b.isLt
  have hn : n.val < 4096 := n.isLt
  have hlt : b.val * 4096 + n.val < 65536 := by omega
  refine (shapeCast_apply _ _ (ix3 b n k) (ix2 (⟨b.val * 4096 + n.val, hlt⟩ : Fin 65536) k) ?_).trans ?_
  · rw [Shape.rowMajor_val_three, Shape.rowMajor_val_two]
    rfl
  · show cell (rows m c) (carr m c) (sarr m c) ⟨b.val * 4096 + n.val, hlt⟩ k = _
    unfold cell
    simp only [rows_apply m c b n ⟨b.val * 4096 + n.val, hlt⟩ rfl]

end Cert.KernelIdeal.Result

end
-- ==== Proof.RefRead.lean ====
/-
  The reference, read at one entry.

  At `(b, n, k)` the reference's result is
      ((0 + Σ_d x[b,n,d]²) − 2·Σ_d x[b,n,d]·C[k,d] + (0 + Σ_d C[k,d]²)) · S[k]:
  the squared norm of the data row (a host sum from zero, kept as a unit axis and broadcast along `k`), the
  contraction of the data row with codebook row `k`, the squared norm of that codebook row (broadcast along
  `b` and `n`), and the scale of row `k`. Each stage is read at an index by its generated lemma; what is written
  here is only that the composed index maps pick the coordinates named above.
-/
import proofs.«142441_j69114613728512_1_alg».proof.Proof.Gen.ReferenceIdeal.Read

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The reference's result at `(b, n, k)`, as sums over the 64 coordinates of a row. -/
theorem result_apply (x0 : (⟨S16x4096x64, .f32⟩ : BufTy).Contents (Elt Ideal)) (x1 : (⟨S512x64, .f32⟩ : BufTy).Contents (Elt Ideal))
    (x2 : (⟨S512, .f32⟩ : BufTy).Contents (Elt Ideal)) (b : Fin 16) (n : Fin 4096) (k : Fin 512) :
    val_main_v15 (F := Ideal) x0 x1 x2 (ix3 b n k)
      = (((Ideal.ofBits .f32 0x00000000#32 + ∑ d : Fin 64, x0 (ix3 b n d) * x0 (ix3 b n d))
            - Ideal.ofBits .f32 0x40000000#32 * ∑ d : Fin 64, x0 (ix3 b n d) * x1 (ix2 k d))
          + (Ideal.ofBits .f32 0x00000000#32 + ∑ d : Fin 64, x1 (ix2 k d) * x1 (ix2 k d))) * x2 (ix1 k) := by
  have e1 : ∀ d : Fin 64, idx_main_v1 (idx_main_v2 (idx_main_v8 (ix3 b n k))) d = ix3 b n d := fun d =>
    funext fun a => Fin.ext (by match a with | ⟨0, _⟩ => rfl | ⟨1, _⟩ => rfl | ⟨2, _⟩ => rfl)
  have e2 : ∀ d : Fin 64, lidx_main_v5 (ix3 b n k) d = ix3 b n d := fun d =>
    funext fun a => Fin.ext (by match a with | ⟨0, _⟩ => rfl | ⟨1, _⟩ => rfl | ⟨2, _⟩ => rfl)
  have e3 : ∀ d : Fin 64, ridx_main_v5 (ix3 b n k) d = ix2 k d := fun d =>
    funext fun a => Fin.ext (by match a with | ⟨0, _⟩ => rfl | ⟨1, _⟩ => rfl)
  have e4 : ∀ d : Fin 64, idx_main_v4 (idx_main_v10 (idx_main_v11 (ix3 b n k))) d = ix2 k d := fun d =>
    funext fun a => Fin.ext (by match a with | ⟨0, _⟩ => rfl | ⟨1, _⟩ => rfl)
  have e5 : idx_main_v13 (idx_main_v14 (ix3 b n k)) = ix1 k :=
    funext fun a => Fin.ext (by match a with | ⟨0, _⟩ => rfl)
  rw [val_main_v15_apply, val_main_v12_apply, val_main_v14_apply, val_main_v13_apply, val_main_v9_apply, val_main_v11_apply,
    val_main_v10_apply, val_main_v4_apply, val_main_v8_apply, val_main_v2_apply, val_main_v1_apply, val_main_v7_apply,
    val_main_v6_apply, val_main_v5_apply]
  simp only [val_main_v0_apply, val_main_v3_apply, val_main_cst_apply, val_main_cst_0_apply, val_main_cst_1_apply,
    Ideal.mulf_def, Ideal.addf_def, Ideal.subf_def, Ideal.ofBits_def, e1, e2, e3, e4, e5]

end Cert.ReferenceIdeal.RefValue

end
-- ==== Proof.RealLaw.lean ====
/-
  The arithmetic that joins the two programs, on the extended reals.

  Both programs compute, for a row `x` of the data, a codebook row `c` and a scale `s`,
  the scaled squared distance through the expansion
      |x|² − 2·(x·c) + |c|².
  The reference multiplies the whole bracket by `s` at the end; the kernel multiplies the three
  terms by `s` one at a time (and takes `s·|c|²` ready-made). The two agree by distributivity,
  which on the extended reals holds only away from the infinities: so the law is stated for data
  that are real numbers, where every sum and product below is again a real number and the identity
  is one of the field ℝ.

  A finite sum of real numbers, taken inside the extended reals, is the real sum (`coe_sum`).
-/
import Idealize.ShloMosaic.PureOps.Ideal

open scoped BigOperators

namespace ScaledSqDist

/-- The inclusion of ℝ in the extended reals commutes with finite sums. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The word `0x40000000` is the number two. -/
theorem two_eq : Idealize.ShloMosaic.Ideal.ofBits .f32 0x40000000#32 = ((2 : ℝ) : EReal) := by
  simp [Idealize.ShloMosaic.Ideal.ofBits, Idealize.ShloMosaic.Ideal.ieee, -EReal.coe_mul]; norm_num

/-- For real data: `(|x|² − t·(x·c) + |c|²)·s = (|x|²·s − (t·(x·c))·s) + s·|c|²`, each squared norm and the inner
    product written as the sum over the coordinates, the reference's two norms starting from an explicit zero. -/
theorem law {D : Type} [Fintype D] (xr cr : D → ℝ) (s t : ℝ) :
    ((((0 : EReal) + ∑ d, (xr d : EReal) * (xr d : EReal)) - (t : EReal) * ∑ d, (xr d : EReal) * (cr d : EReal))
        + ((0 : EReal) + ∑ d, (cr d : EReal) * (cr d : EReal))) * (s : EReal)
      = ((∑ d, (xr d : EReal) * (xr d : EReal)) * (s : EReal) - ((t : EReal) * ∑ d, (xr d : EReal) * (cr d : EReal)) * (s : EReal))
        + (s : EReal) * ((0 : EReal) + ∑ d, (cr d : EReal) * (cr d : EReal)) := by
  simp only [← EReal.coe_mul, ← coe_sum, zero_add, ← EReal.coe_sub, ← EReal.coe_add]
  congr 1
  ring

end ScaledSqDist
-- ==== Proof.Bridge.lean ====
/-
  The two results are one function of the arguments, when the arguments are real.

  At `(b, n, k)` the kernel's result is
      |x|²·s − (2·(x·c))·s + s·(0 + |c|²)
  and the reference's is
      ((0 + |x|²) − 2·(x·c) + (0 + |c|²))·s,
  with `x` the data row `(b, n)`, `c` codebook row `k` and `s` its scale, the norms and the inner product written as
  sums over the 64 coordinates. For real `x`, `c`, `s` the two are equal: distributivity in ℝ.
-/
import proofs.«142441_j69114613728512_1_alg».proof.Proof.KernelArray
import proofs.«142441_j69114613728512_1_alg».proof.Proof.RefRead
import proofs.«142441_j69114613728512_1_alg».proof.Proof.RealLaw

noncomputable section

open scoped BigOperators

namespace Cert.Bridge

open Cert.KernelIdeal Cert.KernelIdeal.Gen Cert.KernelIdeal.Arrays Cert.KernelIdeal.Result
open Idealize.ShloMosaic Idealize.ShloMosaic.TcCoe Idealize.SL.Sem Idealize.ShloMosaic.ValueIdx

variable (m : (ℓ : Loc nD τ sig) → Buf (Elt Ideal) ℓ)

/-- For real arguments the kernel's result array is the reference's last stage of the same arguments. -/
theorem result_eq (c : Dev nD)
    (hx : ∀ i, ∃ r : ℝ, xarr m c i = (r : EReal)) (hC : ∀ i, ∃ r : ℝ, carr m c i = (r : EReal))
    (hS : ∀ i, ∃ r : ℝ, sarr m c i = (r : EReal)) :
    shapeCast S16x4096x512 (table (rows m c) (carr m c) (sarr m c)) shapeCasts_S65536x512_S16x4096x512
      = Cert.ReferenceIdeal.Read.val_main_v15 (F := Ideal) (xarr m c) (carr m c) (sarr m c) := by
  funext i
  obtain ⟨b, n, k, rfl⟩ : ∃ (b : Fin 16) (n : Fin 4096) (k : Fin 512), i = ix3 b n k := ⟨i 0, i 1, i 2, eq_ix3 i⟩
  rw [result_apply, Cert.ReferenceIdeal.RefValue.result_apply]
  choose xr hxr using hx
  choose cr hcr using hC
  choose sr hsr using hS
  simp only [hxr, hcr, hsr, Ideal.ofBits_zero_f32, ScaledSqDist.two_eq]
  exact (ScaledSqDist.law (fun d => xr (ix3 b n d)) (fun d => cr (ix2 k d)) (sr (ix1 k)) 2).symm

end Cert.Bridge

end
-- ==== Proof.lean ====
/- Scaled squared distances to a codebook: for data `x` [16, 4096, 64], a codebook `C` [512, 64] and scales
   `S` [512], the result at `(b, n, k)` is `S[k]·|x[b,n] − C[k]|²`, computed through the expansion
   `|x|² − 2·(x·C[k]) + |C[k]|²`.

   The kernel flattens the data to 65536 rows and works on bands of 2048 rows: for each band it forms the rows'
   squared norms (a lane sum), the products with the transposed codebook (one matrix product into a zero
   accumulator) and stores `|x|²·S[k] − (2·(x·C[k]))·S[k] + S[k]·|C[k]|²`, the last term prepared by the host; the
   host reshapes the 65536 × 512 table back to [16, 4096, 512]. The reference forms the three terms on the host and
   multiplies their sum by `S[k]` once.

   On the extended reals the two agree where distributivity holds, which is where the data are real numbers: that
   is what the precondition says (every entry of the three inputs is finite), and the value claim uses it.
   The frames of the two kernel programs are the generated ones; the reference's frame is its run with the result
   dropped; the ideal pass rewrote nothing, so `preserves` has nothing to state. -/
import proofs.«142441_j69114613728512_1_alg».proof.Defs
import proofs.«142441_j69114613728512_1_alg».proof.Proof.Gen.Kernel
import proofs.«142441_j69114613728512_1_alg».proof.Proof.Gen.Kernel.Skeleton
import proofs.«142441_j69114613728512_1_alg».proof.Proof.Gen.Kernel.Launch
import proofs.«142441_j69114613728512_1_alg».proof.Proof.Gen.Kernel.Points
import proofs.«142441_j69114613728512_1_alg».proof.Proof.Gen.Kernel.Frame
import proofs.«142441_j69114613728512_1_alg».proof.Proof.Gen.KernelIdeal
import proofs.«142441_j69114613728512_1_alg».proof.Proof.Gen.KernelIdeal.Skeleton
import proofs.«142441_j69114613728512_1_alg».proof.Proof.Gen.KernelIdeal.Launch
import proofs.«142441_j69114613728512_1_alg».proof.Proof.Gen.KernelIdeal.Points
import proofs.«142441_j69114613728512_1_alg».proof.Proof.Gen.KernelIdeal.Frame
import proofs.«142441_j69114613728512_1_alg».proof.Proof.Gen.ReferenceIdeal
import proofs.«142441_j69114613728512_1_alg».proof.Proof.Gen.Pre_finite_inputs
import proofs.«142441_j69114613728512_1_alg».proof.Proof.Gen.ReferenceIdeal.Run
import proofs.«142441_j69114613728512_1_alg».proof.Proof.Gen.ReferenceIdeal.Read
import proofs.«142441_j69114613728512_1_alg».proof.Proof.Finite
import proofs.«142441_j69114613728512_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program terminates and leaves its arguments as they were. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the three arguments, both programs end with the reference's last stage of those
    arguments in their result: the reference by its run, the kernel by its run and, the arguments being real under
    the precondition, the distributive law. -/
theorem algebraic : Cert.algebraic_KernelIdeal_ReferenceIdeal := by
  intro m ρ m' ρ' hpre hagree
  refine ⟨fun c => Cert.ReferenceIdeal.Read.val_main_v15 (F := Ideal) (Cert.KernelIdeal.Arrays.xarr m c)
    (Cert.KernelIdeal.Arrays.carr m c) (Cert.KernelIdeal.Arrays.sarr m c), ?_, ?_⟩
  · refine (θ_run Cert.KernelIdeal.defs _ _).mono (fun _ h c => ⟨(h c).1.trans ?_, (h c).2⟩)
      (Cert.KernelIdeal.Result.run m ρ)
    obtain ⟨hx, hC, hS⟩ := Cert.Pre_finite_inputs.Decode.reals_of_pre _ _ _ (hpre c)
    exact Cert.Bridge.result_eq m c hx hC hS
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v15_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
